-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel

variable [Facts]

def fn {F : FTy → Type} [FloatOps F] (main_arg0 : FVec F S16x2048x3 .f32) (main_arg1 : FVec F S16x2048x3 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  main_v8
-- ==== Kernel.lean ====
abbrev S16x2048x3 : Shape := ⟨3, ![16, 2048, 3]⟩
abbrev S16x2048x1 : Shape := ⟨3, ![16, 2048, 1]⟩
abbrev S1x2048x3 : Shape := ⟨3, ![1, 2048, 3]⟩
abbrev S1x512x3 : Shape := ⟨3, ![1, 512, 3]⟩
abbrev S1x2048x1 : Shape := ⟨3, ![1, 2048, 1]⟩
abbrev S1x512x1 : Shape := ⟨3, ![1, 512, 1]⟩
abbrev S2048x3 : Shape := ⟨2, ![2048, 3]⟩
abbrev S512x3 : Shape := ⟨2, ![512, 3]⟩
abbrev S2048 : Shape := ⟨1, ![2048]⟩
abbrev S2048x1 : Shape := ⟨2, ![2048, 1]⟩
abbrev S512 : Shape := ⟨1, ![512]⟩
abbrev S1x512 : Shape := ⟨2, ![1, 512]⟩
abbrev S512x1 : Shape := ⟨2, ![512, 1]⟩
abbrev S2048x512 : Shape := ⟨2, ![2048, 512]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x1, .f32⟩
  | .hbm, ⟨3, _⟩ => ⟨S16x2048x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S1x2048x1, .f32⟩
  | .local _ .vmem, ⟨5, _⟩ => ⟨S1x2048x1, .f32⟩
  | .local _ .vmem, ⟨6, _⟩ => ⟨S1x512x1, .f32⟩
  | .local _ .vmem, ⟨7, _⟩ => ⟨S1x512x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S2048x3_S2048 : S2048x3.Reduces [1] S2048
  shapeCasts_S2048_S2048x1 : S2048.ShapeCasts S2048x1
  reduces_S512x3_S512 : S512x3.Reduces [1] S512
  shapeCasts_S512_S1x512 : S512.ShapeCasts S1x512
  slices_S2048x3_o0_0_S2048x1 : S2048x3.Slices ![0, 0] S2048x1
  slices_S512x3_o0_0_S512x1 : S512x3.Slices ![0, 0] S512x1
  shapeCasts_S512x1_S512 : S512x1.ShapeCasts S512
  broadcasts_S2048x1_S2048x512 : S2048x1.Broadcasts S2048x512
  broadcasts_S1x512_S2048x512 : S1x512.Broadcasts S2048x512
  slices_S2048x3_o0_1_S2048x1 : S2048x3.Slices ![0, 1] S2048x1
  slices_S512x3_o0_1_S512x1 : S512x3.Slices ![0, 1] S512x1
  slices_S2048x3_o0_2_S2048x1 : S2048x3.Slices ![0, 2] S2048x1
  slices_S512x3_o0_2_S512x1 : S512x3.Slices ![0, 2] S512x1
  reduces_S2048x512_S2048 : S2048x512.Reduces [1] S2048
  reduces_S2048x512_S512 : S2048x512.Reduces [0] S512
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S1x2048x1 : S1x2048x1.ShapeCasts S1x2048x1
  shapeCasts_S2048x1_S1x2048x1 : S2048x1.ShapeCasts S1x2048x1
  shapeCasts_S1x512_S1x512x1 : S1x512.ShapeCasts S1x512x1
  inb_S1x512x1_S1x512x1_0_0_0 : ∀ a, (![0, 0, 0] : Fin 3 → Nat) a + S1x512x1.size a ≤ S1x512x1.size a
  h_S1x512x1 : 0 < S1x512x1.numel
  reducesTo_S16x2048x1_S_d0_1_2 : S16x2048x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x2048x3.size a
  hwx0_0 : ∀ i : grid0.Coords, EltTy.bits .f32 = 32 ∨ (Rect.block (s := S16x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S16x2048x3.size a
  hwx0_1 : ∀ i : grid0.Coords, EltTy.bits .f32 = 32 ∨ (Rect.block (s := S16x2048x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S16x2048x1.size a
  hwx0_2 : ∀ i : grid0.Coords, EltTy.bits .f32 = 32 ∨ (Rect.block (s := S16x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x2048x1.size a
  hwx0_3 : ∀ i : grid0.Coords, EltTy.bits .f32 = 32 ∨ (Rect.block (s := S16x2048x1) S1x512x1.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x3 : Shape := ⟨3, ![16, 2048, 3]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16x2048x3, .f32⟩
  | .hbm, ⟨3, _⟩ => ⟨S_, .f32⟩
  | .hbm, ⟨4, _⟩ => ⟨S16x2048, .f32⟩
  | .hbm, ⟨5, _⟩ => ⟨S16x2048x3, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x2048, .f32⟩
  | .hbm, ⟨24, _⟩ => ⟨S_, .f32⟩
  | .hbm, ⟨25, _⟩ => ⟨S_, .f32⟩
  | .hbm, ⟨26, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048_S_d0_1 : S16x2048.ReducesTo [0, 1] S_
  reducesTo_S16x2048x2048_S16x2048_d1 : S16x2048x2048.ReducesTo [1] S16x2048
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.ChamferSpec.lean ====
/-
  The Chamfer distance as one function of the two point clouds, over the extended reals.

  For point clouds `x : [B, N, 3]` and `y : [B, M, 3]` the squared distance between point `n` of `x` and point `m` of `y`
  in batch `b` is written the expanded way, `|x_n|² + |y_m|² − 2·(x_n · y_m)`, each of the three terms a sum over the
  three coordinates. The loss is the sum over every point of `x` of its least distance to a point of `y`, plus the sum
  over every point of `y` of its least distance to a point of `x`.

  A minimum over a finite range is the fold of `min` from `+∞`; what is proved about it here is its universal
  property, that a minimum over `[0, 2048)` may be taken 512 entries at a time as a running minimum, and that a chain
  `((0 + a₀) + a₁) + a₂` is the sum over three coordinates.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- `+∞`, as the word both programs write it. -/
def top : EReal := Ideal.ofBits .f32 0x7F800000#32

theorem top_eq : top = ⊤ := by simp [top, Ideal.ofBits, Ideal.ieee]

/-- The factor `2`, as the word both programs write it (never evaluated: it is the same word on both sides). -/
def two : EReal := Ideal.ofBits .f32 0x40000000#32

/-- The minimum of `f` over `Fin n`, folded from `+∞`. -/
def minOver {n : ℕ} (f : Fin n → EReal) : EReal := (Finset.univ : Finset (Fin n)).fold min top f

theorem le_minOver_iff {n : ℕ} (f : Fin n → EReal) (c : EReal) : c ≤ minOver f ↔ ∀ k, c ≤ f k := by
  unfold minOver
  rw [Finset.le_fold_min, top_eq]
  exact ⟨fun h k => h.2 k (Finset.mem_univ k), fun h => ⟨le_top, fun k _ => h k⟩⟩

theorem minOver_congr {n : ℕ} {f g : Fin n → EReal} (h : ∀ k, f k = g k) : minOver f = minOver g :=
  congrArg minOver (funext h)

/-- The minimum of `f` over the entries below `K`. -/
def minUpto (f : Fin 2048 → EReal) (K : ℕ) : EReal :=
  (Finset.univ.filter fun m : Fin 2048 => m.val < K).fold min top f

theorem le_minUpto_iff (f : Fin 2048 → EReal) (K : ℕ) (c : EReal) : c ≤ minUpto f K ↔ ∀ m : Fin 2048, m.val < K → c ≤ f m := by
  unfold minUpto
  rw [Finset.le_fold_min, top_eq]
  simp only [Finset.mem_filter, Finset.mem_univ, true_and, le_top]

theorem minUpto_zero (f : Fin 2048 → EReal) : minUpto f 0 = top := by
  refine le_antisymm (by rw [top_eq]; exact le_top) ((le_minUpto_iff f 0 top).mpr fun m h => absurd h (Nat.not_lt_zero _))

theorem minUpto_all (f : Fin 2048 → EReal) : minUpto f 2048 = minOver f :=
  eq_of_forall_le_iff fun c => by
    rw [le_minUpto_iff, le_minOver_iff]
    exact ⟨fun h k => h k k.isLt, fun h k _ => h k⟩

/-- Entry `j` of tile `k` of a range of `4 · 512` entries. -/
def tileIdx (k : Fin 4) (j : Fin 512) : Fin 2048 := ⟨512 * k.val + j.val, by have := k.isLt; have := j.isLt; omega⟩

/-- A running minimum: the minimum below `512 (k + 1)` is the minimum below `512 k` and over tile `k`. -/
theorem minUpto_tile (f : Fin 2048 → EReal) (k : Fin 4) :
    minUpto f (512 * (k.val + 1)) = min (minUpto f (512 * k.val)) (minOver fun j : Fin 512 => f (tileIdx k j)) :=
  eq_of_forall_le_iff fun c => by
    rw [le_min_iff, le_minUpto_iff, le_minUpto_iff, le_minOver_iff]
    constructor
    · intro h
      exact ⟨fun m hm => h m (by omega), fun j => h (tileIdx k j) (by show 512 * k.val + j.val < _; have := j.isLt; omega)⟩
    · rintro ⟨h1, h2⟩ m hm
      by_cases hlt : m.val < 512 * k.val
      · exact h1 m hlt
      · have e : m = tileIdx k ⟨m.val - 512 * k.val, by omega⟩ := Fin.ext (by show m.val = 512 * k.val + (m.val - 512 * k.val); omega)
        rw [e]; exact h2 _

/-- `|x_n|²`: the sum of the squares of point `n`'s three coordinates. -/
def sq {B N : ℕ} (x : (⟨3, ![B, N, 3]⟩ : Shape).Idx → EReal) (b : Fin B) (n : Fin N) : EReal :=
  ∑ d : Fin 3, x (ix3 b n d) * x (ix3 b n d)

/-- `x_n · y_m`: the sum over the three coordinates of the products. -/
def dot {B N M : ℕ} (x : (⟨3, ![B, N, 3]⟩ : Shape).Idx → EReal) (y : (⟨3, ![B, M, 3]⟩ : Shape).Idx → EReal)
    (b : Fin B) (n : Fin N) (m : Fin M) : EReal :=
  ∑ d : Fin 3, x (ix3 b n d) * y (ix3 b m d)

/-- The squared distance, expanded: `|x_n|² + |y_m|² − 2 (x_n · y_m)`. -/
def dist {B N M : ℕ} (x : (⟨3, ![B, N, 3]⟩ : Shape).Idx → EReal) (y : (⟨3, ![B, M, 3]⟩ : Shape).Idx → EReal)
    (b : Fin B) (n : Fin N) (m : Fin M) : EReal :=
  (sq x b n + sq y b m) - two * dot x y b n m

/-- The distance depends on the two clouds only through the rows of the two points. -/
theorem dist_congr {B N M B' N' M' : ℕ} {x : (⟨3, ![B, N, 3]⟩ : Shape).Idx → EReal} {y : (⟨3, ![B, M, 3]⟩ : Shape).Idx → EReal}
    {x' : (⟨3, ![B', N', 3]⟩ : Shape).Idx → EReal} {y' : (⟨3, ![B', M', 3]⟩ : Shape).Idx → EReal}
    {b : Fin B} {n : Fin N} {m : Fin M} {b' : Fin B'} {n' : Fin N'} {m' : Fin M'}
    (hx : ∀ d : Fin 3, x (ix3 b n d) = x' (ix3 b' n' d)) (hy : ∀ d : Fin 3, y (ix3 b m d) = y' (ix3 b' m' d)) :
    dist x y b n m = dist x' y' b' n' m' := by
  unfold dist sq dot
  simp only [hx, hy]

/-- Point `n` of `x`'s least distance to a point of `y`. -/
def rowMin (x y : (⟨3, ![16, 2048, 3]⟩ : Shape).Idx → EReal) (b : Fin 16) (n : Fin 2048) : EReal :=
  minOver fun m : Fin 2048 => dist x y b n m

/-- Point `m` of `y`'s least distance to a point of `x`. -/
def colMin (x y : (⟨3, ![16, 2048, 3]⟩ : Shape).Idx → EReal) (b : Fin 16) (m : Fin 2048) : EReal :=
  minOver fun n : Fin 2048 => dist x y b n m

/-- The Chamfer loss. -/
def loss (x y : (⟨3, ![16, 2048, 3]⟩ : Shape).Idx → EReal) : EReal :=
  (∑ b : Fin 16, ∑ n : Fin 2048, rowMin x y b n) + (∑ b : Fin 16, ∑ m : Fin 2048, colMin x y b m)

/-- A chain of three additions from zero is the sum over the three coordinates. -/
theorem chain3 (a : Fin 3 → EReal) : ((0 + a 0) + a 1) + a 2 = ∑ d : Fin 3, a d := by
  rw [Fin.sum_univ_three, zero_add]

/-- A sum over a rank-3 index set whose last axis has one entry is the double sum over the first two coordinates. -/
theorem sum_idx3_unit {n0 n1 : ℕ} (f : (⟨3, ![n0, n1, 1]⟩ : Shape).Idx → EReal) :
    ∑ i, f i = ∑ a : Fin n0, ∑ b : Fin n1, f (ix3 a b (0 : Fin 1)) := by
  let e : (⟨3, ![n0, n1, 1]⟩ : Shape).Idx ≃ Fin n0 × Fin n1 :=
    { toFun := fun i => (i 0, i 1)
      invFun := fun p => ix3 p.1 p.2 (0 : Fin 1)
      left_inv := fun i => by
        funext a
        match a with
        | ⟨0, _⟩ => rfl
        | ⟨1, _⟩ => rfl
        | ⟨2, h⟩ => exact Fin.ext (by have h2 : (i ⟨2, h⟩).val < 1 := (i ⟨2, h⟩).isLt; show (0 : ℕ) = (i ⟨2, h⟩).val; omega)
      right_inv := fun _ => rfl }
  rw [← Equiv.sum_comp e.symm f, Fintype.sum_prod_type]
  rfl

end Chamfer

end
-- ==== Proof.RefValue.lean ====
/-
  The reference's result, at the ideal instance, is the Chamfer loss of its two arguments.

  The reference builds the full [16, 2048, 2048] table of squared distances `|x_n|² + |y_m|² − 2 (x_n · y_m)`, takes its
  minimum along each of the two point axes, sums each table of minima, and adds the two sums.
-/
import proofs.«112183_j11656541241933_1_alg».proof.Defs
import proofs.«112183_j11656541241933_1_alg».proof.Proof.Gen.ReferenceIdeal.Run
import proofs.«112183_j11656541241933_1_alg».proof.Proof.Gen.ReferenceIdeal.Read
import proofs.«112183_j11656541241933_1_alg».proof.Proof.ChamferSpec
import Idealize.ShloMosaic.Lib.ValueIdx
import Idealize.ShloMosaic.Lib.Pipeline.Value
import Idealize.ShloMosaic.PureOps.Ideal.Laws

noncomputable section

namespace Cert.ReferenceIdeal.ChamferRef

open Idealize.ShloMosaic Idealize.ShloMosaic.ValueIdx Cert.ReferenceIdeal Cert.ReferenceIdeal.Gen Cert.ReferenceIdeal.Read

/-- The index the first cloud's squared norm is read at, under the two broadcasts, is (b, n, k). -/
theorem idx_sqx (b : Fin 16) (n m : Fin 2048) (k : Fin 3) :
    idx_main_v1 (idx_main_v5 (idx_main_v7 (ix3 b n m))) k = ix3 b n k := by
  funext a
  match a with
  | ⟨0, _⟩ => rfl
  | ⟨1, _⟩ => rfl
  | ⟨2, _⟩ => rfl

/-- The index the second cloud's squared norm is read at, under the two broadcasts, is (b, m, k). -/
theorem idx_sqy (b : Fin 16) (n m : Fin 2048) (k : Fin 3) :
    idx_main_v3 (idx_main_v6 (idx_main_v8 (ix3 b n m))) k = ix3 b m k := by
  funext a
  match a with
  | ⟨0, _⟩ => rfl
  | ⟨1, _⟩ => rfl
  | ⟨2, _⟩ => rfl

/-- The left operand of the product of coordinates is read at (b, n, k). -/
theorem idx_dotl (b : Fin 16) (n m : Fin 2048) (k : Fin 3) :
    lidx_main_v4 (ix3 b n m) k = ix3 b n k := by
  funext a
  match a with
  | ⟨0, _⟩ => rfl
  | ⟨1, _⟩ => rfl
  | ⟨2, _⟩ => rfl

/-- The right operand of the product of coordinates is read at (b, m, k). -/
theorem idx_dotr (b : Fin 16) (n m : Fin 2048) (k : Fin 3) :
    ridx_main_v4 (ix3 b n m) k = ix3 b m k := by
  funext a
  match a with
  | ⟨0, _⟩ => rfl
  | ⟨1, _⟩ => rfl
  | ⟨2, _⟩ => rfl

/-- The table of squared distances: entry (b, n, m) is `|x_n|² + |y_m|² − 2 (x_n · y_m)`. -/
theorem v12_eq (x0 x1 : (⟨S16x2048x3, .f32⟩ : BufTy).Contents (Elt Ideal)) (b : Fin 16) (n m : Fin 2048) :
    val_main_v12 (F := Ideal) x0 x1 (ix3 b n m) = Chamfer.dist x0 x1 b n m := by
  rw [val_main_v12_apply, val_main_v9_apply, val_main_v7_apply, val_main_v5_apply, val_main_v1_apply,
    val_main_v8_apply, val_main_v6_apply, val_main_v3_apply, val_main_v11_apply, val_main_v10_apply,
    val_main_v4_apply, val_main_cst_apply, val_main_cst_0_apply, val_main_cst_1_apply]
  simp only [val_main_v0_apply, val_main_v2_apply, idx_sqx, idx_sqy, idx_dotl, idx_dotr, Ideal.ofBits_def,
    Ideal.ofBits_zero_f32, zero_add, Ideal.addf_def, Ideal.subf_def, Ideal.mulf_def]
  rfl

/-- Result index (b, n) with coordinate `k` put back on the last axis is (b, n, k). -/
theorem lift_last (h : S16x2048x2048.Reduces [2] S16x2048) (b : Fin 16) (n : Fin 2048)
    (k : Fin (S16x2048x2048.size 2)) : h.lift (ix2 b n) k = ix3 b n (⟨k.val, k.isLt⟩ : Fin 2048) := by
  funext c
  apply Fin.ext
  match c with
  | ⟨0, _⟩ => rfl
  | ⟨1, _⟩ => rfl
  | ⟨2, _⟩ => rfl

/-- Result index (b, m) with coordinate `k` put back on the middle axis is (b, k, m). -/
theorem lift_mid (h : S16x2048x2048.Reduces [1] S16x2048) (b : Fin 16) (m : Fin 2048)
    (k : Fin (S16x2048x2048.size 1)) : h.lift (ix2 b m) k = ix3 b (⟨k.val, k.isLt⟩ : Fin 2048) m := by
  funext c
  apply Fin.ext
  match c with
  | ⟨0, _⟩ => rfl
  | ⟨1, _⟩ => rfl
  | ⟨2, _⟩ => rfl

/-- The minimum along the last axis: entry (b, n) is point `n` of `x`'s least distance to a point of `y`. -/
theorem v13_eq (x0 x1 : (⟨S16x2048x3, .f32⟩ : BufTy).Contents (Elt Ideal)) (b : Fin 16) (n : Fin 2048) :
    val_main_v13 (F := Ideal) x0 x1 (ix2 b n) = Chamfer.rowMin x0 x1 b n := by
  have h : S16x2048x2048.Reduces [2] S16x2048 := by decide
  unfold val_main_v13
  rw [Host.reduce_eq_fold_single (FloatOps.minimumf (F := Ideal) (φ := .f32)) _ _ reducesTo_S16x2048x2048_S16x2048_d2 h h_S_]
  have hf : (val_main_v12 (F := Ideal) x0 x1 ∘ h.lift (ix2 b n)) = fun k : Fin 2048 => Chamfer.dist x0 x1 b n k :=
    funext fun k => (congrArg (val_main_v12 (F := Ideal) x0 x1) (lift_last h b n k)).trans (v12_eq x0 x1 b n _)
  exact congrArg (fun f => Finset.fold min Chamfer.top f (Finset.univ : Finset (Fin 2048))) hf

/-- The minimum along the middle axis: entry (b, m) is point `m` of `y`'s least distance to a point of `x`. -/
theorem v15_eq (x0 x1 : (⟨S16x2048x3, .f32⟩ : BufTy).Contents (Elt Ideal)) (b : Fin 16) (m : Fin 2048) :
    val_main_v15 (F := Ideal) x0 x1 (ix2 b m) = Chamfer.colMin x0 x1 b m := by
  have h : S16x2048x2048.Reduces [1] S16x2048 := by decide
  unfold val_main_v15
  rw [Host.reduce_eq_fold_single (FloatOps.minimumf (F := Ideal) (φ := .f32)) _ _ reducesTo_S16x2048x2048_S16x2048_d1 h h_S_]
  have hf : (val_main_v12 (F := Ideal) x0 x1 ∘ h.lift (ix2 b m)) = fun k : Fin 2048 => Chamfer.dist x0 x1 b k m :=
    funext fun k => (congrArg (val_main_v12 (F := Ideal) x0 x1) (lift_mid h b m k)).trans (v12_eq x0 x1 b _ m)
  exact congrArg (fun f => Finset.fold min Chamfer.top f (Finset.univ : Finset (Fin 2048))) hf

/-- The reference's last stage is the loss, at its one (rank-0) index. -/
theorem result_eq (x0 x1 : (⟨S16x2048x3, .f32⟩ : BufTy).Contents (Elt Ideal)) :
    val_main_v17 (F := Ideal) x0 x1 = fun _ => Chamfer.loss x0 x1 := by
  funext i
  rw [val_main_v17_apply, val_main_v14_apply, val_main_v16_apply, val_main_cst_3_apply, val_main_cst_5_apply]
  simp only [Ideal.ofBits_def, Ideal.ofBits_zero_f32, zero_add, Ideal.addf_def]
  rw [sum_idx2, sum_idx2]
  simp only [v13_eq, v15_eq]
  rfl

end Cert.ReferenceIdeal.ChamferRef

end
-- ==== Proof.KernelPieces.lean ====
/-
  What one grid point leaves in the two output blocks, as values of the body's arithmetic.

  The body's stores, read back through the block they cover, are the stored values themselves; each stored value is a
  function of the two input blocks (and, for the running minimum, of what the block held before). This holds at any
  float instance.
-/
import proofs.«112183_j11656541241933_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ChamferPieces

open Cert.KernelIdeal Cert.KernelIdeal.Gen

variable {F : FTy → Type} [FloatOps F]

theorem hz : (![0, 0, 0] : Fin 3 → Nat) = fun _ => 0 := funext fun a => by fin_cases a <;> rfl

/-- At a point that is not the first of its batch the running-minimum block ends at the smaller, entry by entry, of
    what it held (`xo2`) and the tile's row minima: the one covering store's value, its loads reading whole buffers. -/
theorem out_B_2 (c : Dev nD) (i : grid0.Coords) (a2 : Memref sig .tc .vmem S1x2048x3 .f32) (h2 : a2.IsWhole)
    (a3 : Memref sig .tc .vmem S1x512x3 .f32) (h3 : a3.IsWhole) (a4 : Memref sig .tc .vmem S1x2048x1 .f32) (h4 : a4.IsWhole)
    (a5 : Memref sig .tc .vmem S1x512x1 .f32) (h5 : a5.IsWhole) (hc : ¬cond0_0 i)
    (x0 : Vec F S1x2048x3 .f32) (x1 : Vec F S1x512x3 .f32) (xo2 : Vec F S1x2048x1 .f32) :
    out0_B_2 c i a2 h2 a3 h3 a4 h4 a5 h5 hc x0 x1 xo2 = k0_pay2 (k0_pay5 x0 x1) xo2 := by
  unfold out0_B_2
  rw [View.read_writes_eq_canon _ _ _ (cover0_B_2 c i a2 h2 a3 h3 a4 h4 a5 h5 hc x0 x1 xo2)]
  unfold kernelRun0_B
  dsimp only
  sl_unfold_words
  rw [View.canon_unit_zero hz]
  simp only [View.readAt_eq_ld, h2.read_unread, h3.read_unread, h4.read_unread, View.ld_unit_zero (S := S1x2048x3) hz,
    View.ld_unit_zero (S := S1x512x3) hz, View.ld_unit_zero (S := S1x2048x1) hz]

/-- At the first point of a batch the block is first set to `+∞` everywhere and then read back, so it ends at the
    smaller of `+∞` and the tile's row minima. -/
theorem out_A_2 (c : Dev nD) (i : grid0.Coords) (a2 : Memref sig .tc .vmem S1x2048x3 .f32) (h2 : a2.IsWhole)
    (a3 : Memref sig .tc .vmem S1x512x3 .f32) (h3 : a3.IsWhole) (a4 : Memref sig .tc .vmem S1x2048x1 .f32) (h4 : a4.IsWhole)
    (a5 : Memref sig .tc .vmem S1x512x1 .f32) (h5 : a5.IsWhole) (hc : cond0_0 i)
    (x0 : Vec F S1x2048x3 .f32) (x1 : Vec F S1x512x3 .f32) :
    out0_A_2 c i a2 h2 a3 h3 a4 h4 a5 h5 hc x0 x1 = k0_pay2 (k0_pay5 x0 x1) (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x2048x1) hz, View.readCov_unit_zero (S := S1x2048x1) _ hz]
  simp only [View.readAt_eq_ld, h2.read_unread, h3.read_unread, h4.read_unread, View.ld_unit_zero (S := S1x2048x3) hz,
    View.ld_unit_zero (S := S1x512x3) hz, View.ld_unit_zero (S := S1x2048x1) hz]

/-- The column-minimum block is the tile's column minima, at every point: the first of a batch … -/
theorem out_A_3 (c : Dev nD) (i : grid0.Coords) (a2 : Memref sig .tc .vmem S1x2048x3 .f32) (h2 : a2.IsWhole)
    (a3 : Memref sig .tc .vmem S1x512x3 .f32) (h3 : a3.IsWhole) (a4 : Memref sig .tc .vmem S1x2048x1 .f32) (h4 : a4.IsWhole)
    (a5 : Memref sig .tc .vmem S1x512x1 .f32) (h5 : a5.IsWhole) (hc : cond0_0 i)
    (x0 : Vec F S1x2048x3 .f32) (x1 : Vec F S1x512x3 .f32) :
    out0_A_3 c i a2 h2 a3 h3 a4 h4 a5 h5 hc x0 x1 = k0_pay3 (k0_pay6 x0 x1) := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S1x2048x3) hz,
    View.ld_unit_zero (S := S1x512x3) hz]

/-- … and every other. -/
theorem out_B_3 (c : Dev nD) (i : grid0.Coords) (a2 : Memref sig .tc .vmem S1x2048x3 .f32) (h2 : a2.IsWhole)
    (a3 : Memref sig .tc .vmem S1x512x3 .f32) (h3 : a3.IsWhole) (a4 : Memref sig .tc .vmem S1x2048x1 .f32) (h4 : a4.IsWhole)
    (a5 : Memref sig .tc .vmem S1x512x1 .f32) (h5 : a5.IsWhole) (hc : ¬cond0_0 i)
    (x0 : Vec F S1x2048x3 .f32) (x1 : Vec F S1x512x3 .f32) (xo2 : Vec F S1x2048x1 .f32) :
    out0_B_3 c i a2 h2 a3 h3 a4 h4 a5 h5 hc x0 x1 xo2 = k0_pay3 (k0_pay6 x0 x1) := by
  unfold out0_B_3
  rw [View.read_writes_eq_canon _ _ _ (cover0_B_3 c i a2 h2 a3 h3 a4 h4 a5 h5 hc x0 x1 xo2)]
  unfold kernelRun0_B
  dsimp only
  sl_unfold_words
  rw [View.canon_unit_zero hz]
  simp only [View.readAt_eq_ld, h2.read_unread, h3.read_unread, View.ld_unit_zero (S := S1x2048x3) hz,
    View.ld_unit_zero (S := S1x512x3) hz]

end Cert.KernelIdeal.ChamferPieces

end
-- ==== Proof.KernelPayload.lean ====
/-
  The kernel body's arithmetic read at an index, at the ideal instance.

  At a grid point the body holds the whole cloud `x0 : [1, 2048, 3]` of one batch and a tile `x1 : [1, 512, 3]` of the
  other cloud. Its tile of squared distances at `(n, j)` is `|x0_n|² + |x1_j|² − 2 (x0_n · x1_j)`; the row minimum at
  `n` is the minimum of that over the tile's 512 points, the column minimum at `j` the minimum over the 2048 points;
  the running row minimum is the smaller of what the buffer held and the tile's row minimum.
-/
import proofs.«112183_j11656541241933_1_alg».proof.Proof.Gen.KernelIdeal.Skeleton
import proofs.«112183_j11656541241933_1_alg».proof.Proof.ChamferSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ChamferPayload

open Idealize.ShloMosaic Idealize.ShloMosaic.ValueIdx Cert.KernelIdeal Cert.KernelIdeal.Gen

/-! ## Layout forms read at an index given by coordinates -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1, a]` array cast to `[1, a, 1]` reads, at `(u, i, w)`, the operand at `(0, i)`. -/
private theorem shapeCast_1a_1a1_apply {α : Type} {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along one axis of a matrix -/

/-- A lane sum of an `[a, 3]` array at `n` is the sum over the three coordinates of row `n`. -/
private theorem sumAxis1_apply {a : ℕ} (v : FVec Ideal ⟨2, ![a, 3]⟩ .f32)
    (h : (⟨2, ![a, 3]⟩ : Shape).Reduces [1] ⟨1, ![a]⟩) (hφ : FKind.Formats .f32)
    (hacc : (0x00000000#32 : BitVec 32) = FKind.add.neutral .f32 hφ) (n : Fin a) :
    multiReduction .add [1] ⟨1, ![a]⟩ v 0x00000000#32 h hφ hacc (ix1 n) = ∑ d : Fin 3, v (ix2 n d) := by
  refine (Ideal.multiReduction_add_single v _ h hφ hacc (ix1 n)).trans ?_
  refine Finset.sum_congr rfl fun d _ => congrArg v (funext fun c => ?_)
  match c with
  | ⟨0, _⟩ => rfl
  | ⟨1, _⟩ => rfl

/-- A minimum along the rows of an `[a, b]` array at `n` is the minimum over row `n`. -/
private theorem minAxis1_apply {a b : ℕ} (v : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (n : Fin a) :
    multiReduction .minimumf [1] ⟨1, ![a]⟩ v 0x7F800000#32 h hφ hacc (ix1 n)
      = Chamfer.minOver fun j : Fin b => v (ix2 n j) := by
  rw [multiReduction_minimumf_eq_fold]
  refine (h.fold_filter_drop_single _ _ v (ix1 n)).trans ?_
  unfold Chamfer.minOver Chamfer.top
  refine congrArg (Finset.fold min (Ideal.ofBits .f32 0x7F800000#32) · Finset.univ) (funext fun j => congrArg v (funext fun c => ?_))
  match c with
  | ⟨0, _⟩ => rfl
  | ⟨1, _⟩ => rfl

/-- A minimum along the columns of an `[a, b]` array at `j` is the minimum over column `j`. -/
private theorem minAxis0_apply {a b : ℕ} (v : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (j : Fin b) :
    multiReduction .minimumf [0] ⟨1, ![b]⟩ v 0x7F800000#32 h hφ hacc (ix1 j)
      = Chamfer.minOver fun n : Fin a => v (ix2 n j) := by
  rw [multiReduction_minimumf_eq_fold]
  refine (h.fold_filter_drop_single _ _ v (ix1 j)).trans ?_
  unfold Chamfer.minOver Chamfer.top
  refine congrArg (Finset.fold min (Ideal.ofBits .f32 0x7F800000#32) · Finset.univ) (funext fun n => congrArg v (funext fun c => ?_))
  match c with
  | ⟨0, _⟩ => rfl
  | ⟨1, _⟩ => rfl

/-- The tile of squared distances at `(n, j)`. -/
theorem pay4_apply (x0 : Vec Ideal S1x2048x3 .f32) (x1 : Vec Ideal S1x512x3 .f32) (n : Fin 2048) (j : Fin 512) :
    k0_pay4 (F := Ideal) x0 x1 (ix2 n j) = Chamfer.dist x0 x1 (0 : Fin 1) n j := by
  unfold k0_pay4
  simp only [subf_apply, addf_apply, mulf_apply, broadcast_apply, broadcastTo_a1_ab_apply, broadcastTo_1b_ab_apply,
    shapeCast_a_a1_apply, shapeCast_a_1a_apply, shapeCast_a1_a_apply, slice2_axis1_eq, shapeCast_1ab_ab_apply]
  unfold Chamfer.dist
  refine congrArg₂ (· - ·) (congrArg₂ (· + ·) ?_ ?_) (congrArg (Chamfer.two * ·) ?_)
  · -- the lane sum of the squares of row `n` of the first cloud
    refine (sumAxis1_apply _ _ _ _ n).trans (Finset.sum_congr rfl fun d _ => ?_)
    rw [mulf_apply, shapeCast_1ab_ab_apply]
  · -- the lane sum of the squares of row `j` of the tile
    refine (sumAxis1_apply _ _ _ _ j).trans (Finset.sum_congr rfl fun d _ => ?_)
    rw [mulf_apply, shapeCast_1ab_ab_apply]
  · -- the chain of three products from zero is the dot product
    refine Eq.trans ?_ (Chamfer.chain3 fun d : Fin 3 => x0 (ix3 (0 : Fin 1) n d) * x1 (ix3 (0 : Fin 1) j d))
    show Ideal.ofBits .f32 0x00000000#32 + _ + _ + _ = _
    rw [Ideal.ofBits_zero_f32]
    rfl

/-- The tile's row minimum at `n`. -/
theorem pay5_apply (x0 : Vec Ideal S1x2048x3 .f32) (x1 : Vec Ideal S1x512x3 .f32) (n : Fin 2048) :
    k0_pay5 (F := Ideal) x0 x1 (ix2 n (0 : Fin 1)) = Chamfer.minOver fun j : Fin 512 => Chamfer.dist x0 x1 (0 : Fin 1) n j := by
  unfold k0_pay5
  refine (shapeCast_a_a1_apply _ _ n (0 : Fin 1)).trans ?_
  refine (minAxis1_apply (k0_pay4 (F := Ideal) x0 x1) _ _ _ n).trans ?_
  exact Chamfer.minOver_congr fun j => pay4_apply x0 x1 n j

/-- The tile's column minimum at `j`. -/
theorem pay6_apply (x0 : Vec Ideal S1x2048x3 .f32) (x1 : Vec Ideal S1x512x3 .f32) (j : Fin 512) :
    k0_pay6 (F := Ideal) x0 x1 (ix2 (0 : Fin 1) j) = Chamfer.minOver fun n : Fin 2048 => Chamfer.dist x0 x1 (0 : Fin 1) n j := by
  unfold k0_pay6
  refine (shapeCast_a_1a_apply _ _ (0 : Fin 1) j).trans ?_
  refine (minAxis0_apply (k0_pay4 (F := Ideal) x0 x1) _ _ _ j).trans ?_
  exact Chamfer.minOver_congr fun n => pay4_apply x0 x1 n j

/-- The running row minimum: the smaller of the buffer's entry and the tile's row minimum. -/
theorem pay2_apply (v42 : FVec Ideal S2048x1 .f32) (v48 : Vec Ideal S1x2048x1 .f32) (n : Fin 2048) :
    k0_pay2 (F := Ideal) v42 v48 (ix3 (0 : Fin 1) n (0 : Fin 1)) = min (v48 (ix3 (0 : Fin 1) n (0 : Fin 1))) (v42 (ix2 n (0 : Fin 1))) := by
  unfold k0_pay2
  show min (shapeCast S1x2048x1 v48 shapeCasts_S1x2048x1_S1x2048x1 (ix3 (0 : Fin 1) n (0 : Fin 1)))
      (shapeCast S1x2048x1 v42 shapeCasts_S2048x1_S1x2048x1 (ix3 (0 : Fin 1) n (0 : Fin 1))) = _
  rw [shapeCast_self, shapeCast_ab_1ab_apply]

/-- The column minimum laid out as the output block. -/
theorem pay3_apply (v44 : FVec Ideal S1x512 .f32) (j : Fin 512) :
    k0_pay3 (F := Ideal) v44 (ix3 (0 : Fin 1) j (0 : Fin 1)) = v44 (ix2 (0 : Fin 1) j) := by
  unfold k0_pay3
  exact shapeCast_1a_1a1_apply v44 _ _ _ _

/-- The reset block is `+∞` everywhere. -/
theorem pay1_apply (i : S1x2048x1.Idx) : k0_pay1 (F := Ideal) i = Chamfer.top := rfl

end Cert.KernelIdeal.ChamferPayload

end
-- ==== Proof.KernelArrays.lean ====
/-
  What the two output arrays hold after the region, at the ideal instance.

  Grid point `t` of the 16 × 4 grid works on batch `t / 4` and on tile `t % 4` of the second cloud (512 of its 2048
  points). Its first input block is the whole first cloud of that batch, its second input block the tile.
  * The column-minimum block a point leaves is, at `j`, the least distance from point `512 (t % 4) + j` of the second cloud
    to the first cloud: every point of the grid writes its own block of the second output array, and these tile it.
  * The running row-minimum block is carried along the four points of a batch: after point `t` it holds, at `n`, the least
    distance from point `n` of the first cloud to the second cloud's points below `512 (t % 4 + 1)` — by induction on
    the point, a batch's first point starting from `+∞`. It is written back after a batch's last point, when that
    bound is 2048: the row minimum over the whole second cloud. These 16 blocks tile the first output array.
-/
import proofs.«112183_j11656541241933_1_alg».proof.Proof.KernelPieces
import proofs.«112183_j11656541241933_1_alg».proof.Proof.KernelPayload
import proofs.«112183_j11656541241933_1_alg».proof.Proof.ChamferSpec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.ChamferArrays

open Cert.KernelIdeal Cert.KernelIdeal.Gen Idealize.ShloMosaic.ValueIdx
open Cert.KernelIdeal.ChamferPieces Cert.KernelIdeal.ChamferPayload

variable (m : (ℓ : Loc nD τ sig) → Buf (Elt Ideal) ℓ)

/-- The first cloud, the second cloud, and a point's two input blocks, at their literal types. -/
abbrev X (c : Dev nD) : Vec Ideal S16x2048x3 .f32 := V m c main_arg0
abbrev Y (c : Dev nD) : Vec Ideal S16x2048x3 .f32 := V m c main_arg1
abbrev xblk (c : Dev nD) (t : Fin cfg0.N) : Vec Ideal S1x2048x3 .f32 := iblk m c 0 t
abbrev yblk (c : Dev nD) (t : Fin cfg0.N) : Vec Ideal S1x512x3 .f32 := iblk m c 1 t

theorem N64 : cfg0.N = 64 := N_0

/-- The batch and the tile of a grid point. -/
def bOf (t : Fin cfg0.N) : Fin 16 := ⟨t.val / 4, by have := lt_of_lt_of_eq t.isLt N64; omega⟩
def kOf (t : Fin cfg0.N) : Fin 4 := ⟨t.val % 4, Nat.mod_lt _ (by decide)⟩

/-- The printed index maps, decided over the grid: every window's batch coordinate is `t / 4`; the tile windows' point
    coordinate is `t % 4`, the whole-cloud windows' is `0`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- The first input block is the batch's rows of the first cloud. -/
theorem xblk_apply (c : Dev nD) (t : Fin cfg0.N) (n : Fin 2048) (d : Fin 3) :
    xblk m c t (ix3 (0 : Fin 1) n d) = X m c (ix3 (bOf t) n d) := by
  obtain ⟨e0, e1, e2, -⟩ := idx_facts t
  show iblk m c 0 t (ix3 (0 : Fin 1) n d) = _
  unfold iblk
  rw [View.read_apply]
  show V m c main_arg0 _ = V m c main_arg0 _
  congr 1
  funext a
  apply Fin.ext
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 3 + 1 * d.val = d.val; omega

/-- The second input block is the tile's rows of the second cloud. -/
theorem yblk_apply (c : Dev nD) (t : Fin cfg0.N) (j : Fin 512) (d : Fin 3) :
    yblk m c t (ix3 (0 : Fin 1) j d) = Y m c (ix3 (bOf t) (Chamfer.tileIdx (kOf t) j) d) := by
  obtain ⟨-, -, -, e0, e1, e2, -⟩ := idx_facts t
  show iblk m c 1 t (ix3 (0 : Fin 1) j d) = _
  unfold iblk
  rw [View.read_apply]
  show V m c main_arg1 _ = V m c main_arg1 _
  congr 1
  funext a
  apply Fin.ext
  match a with
  | ⟨0, _⟩ => show win0_1.index t (0 : Fin 3) * 1 + 1 * 0 = t.val / 4; omega
  | ⟨1, _⟩ => show win0_1.index t (1 : Fin 3) * 512 + 1 * j.val = 512 * (t.val % 4) + j.val; omega
  | ⟨2, _⟩ => show win0_1.index t (2 : Fin 3) * 3 + 1 * d.val = d.val; omega

/-- So a distance inside the point's tile is a distance between the clouds. -/
theorem tile_dist (c : Dev nD) (t : Fin cfg0.N) (n : Fin 2048) (j : Fin 512) :
    Chamfer.dist (xblk m c t) (yblk m c t) (0 : Fin 1) n j
      = Chamfer.dist (X m c) (Y m c) (bOf t) n (Chamfer.tileIdx (kOf t) j) :=
  Chamfer.dist_congr (fun d => xblk_apply m c t n d) (fun d => yblk_apply m c t j d)

/-- An index of a `[1, a, 1]` block is its middle coordinate between zeros. -/
theorem eq_mid {a : ℕ} (y : (⟨3, ![1, a, 1]⟩ : Shape).Idx) : y = ix3 (0 : Fin 1) (y 1) (0 : Fin 1) := by
  funext k
  match k with
  | ⟨0, h⟩ => exact Fin.ext (by have h2 : (y ⟨0, h⟩).val < 1 := (y ⟨0, h⟩).isLt; show (y ⟨0, h⟩).val = 0; omega)
  | ⟨1, _⟩ => rfl
  | ⟨2, h⟩ => exact Fin.ext (by have h2 : (y ⟨2, h⟩).val < 1 := (y ⟨2, h⟩).isLt; show (y ⟨2, h⟩).val = 0; omega)

/-! ## The column minima: every point writes its own -/

theorem outs2_apply (c : Dev nD) (t : Fin cfg0.N) (j : Fin 512) :
    (outsAt0 m c t.val t.isLt).2 (ix3 (0 : Fin 1) j (0 : Fin 1))
      = Chamfer.colMin (X m c) (Y m c) (bOf t) (Chamfer.tileIdx (kOf t) j) := by
  have key : k0_pay3 (F := Ideal) (k0_pay6 (xblk m c t) (yblk m c t)) (ix3 (0 : Fin 1) j (0 : Fin 1))
      = Chamfer.colMin (X m c) (Y m c) (bOf t) (Chamfer.tileIdx (kOf t) j) := by
    rw [pay3_apply, pay6_apply]
    exact Chamfer.minOver_congr fun n => tile_dist m c t n j
  by_cases h0 : t.val % 4 = 0
  · rw [outsAt0_A m c t h0]
    dsimp only
    exact (congrFun (out_A_3 (F := Ideal) c (grid0.coords t) (ms0_0 t) (hs0_0 t) (ms0_1 t) (hs0_1 t) (ms0_2 t) (hs0_2 t) (ms0_3 t) (hs0_3 t)
      ((hcond0_0 t).mpr h0) (xblk m c t) (yblk m c t)) (ix3 (0 : Fin 1) j (0 : Fin 1))).trans key
  · rw [outsAt0_B m c t h0]
    dsimp only
    exact (congrFun (out_B_3 (F := Ideal) c (grid0.coords t) (ms0_0 t) (hs0_0 t) (ms0_1 t) (hs0_1 t) (ms0_2 t) (hs0_2 t) (ms0_3 t) (hs0_3 t)
      (fun h => h0 ((hcond0_0 t).mp h)) (xblk m c t) (yblk m c t)
      (outsAt0 m c (t.val - 1) (Nat.lt_of_le_of_lt (Nat.sub_le _ _) t.isLt)).1) (ix3 (0 : Fin 1) j (0 : Fin 1))).trans key

/-! ## The row minima: a running minimum along a batch's four points -/

/-- The tile's row minimum at a point, as a minimum of distances between the clouds. -/
theorem tile_rowmin (c : Dev nD) (t : Fin cfg0.N) (r : Fin 2048) :
    k0_pay5 (F := Ideal) (xblk m c t) (yblk m c t) (ix2 r (0 : Fin 1))
      = Chamfer.minOver fun j : Fin 512 => Chamfer.dist (X m c) (Y m c) (bOf t) r (Chamfer.tileIdx (kOf t) j) := by
  rw [pay5_apply]
  exact Chamfer.minOver_congr fun j => tile_dist m c t r j

/-- A batch's first point: from `+∞`. -/
theorem rowA (c : Dev nD) (t : Fin cfg0.N) (h0 : t.val % 4 = 0) (r : Fin 2048) :
    (outsAt0 m c t.val t.isLt).1 (ix3 (0 : Fin 1) r (0 : Fin 1))
      = min Chamfer.top (Chamfer.minOver fun j : Fin 512 => Chamfer.dist (X m c) (Y m c) (bOf t) r (Chamfer.tileIdx (kOf t) j)) := by
  rw [outsAt0_A m c t h0]
  dsimp only
  refine (congrFun (out_A_2 (F := Ideal) c (grid0.coords t) (ms0_0 t) (hs0_0 t) (ms0_1 t) (hs0_1 t) (ms0_2 t) (hs0_2 t) (ms0_3 t) (hs0_3 t)
    ((hcond0_0 t).mpr h0) (xblk m c t) (yblk m c t)) (ix3 (0 : Fin 1) r (0 : Fin 1))).trans ?_
  rw [pay2_apply, pay1_apply, tile_rowmin]

/-- Every other point: from what the point before left. -/
theorem rowB (c : Dev nD) (t : Fin cfg0.N) (h0 : ¬t.val % 4 = 0) (r : Fin 2048) :
    (outsAt0 m c t.val t.isLt).1 (ix3 (0 : Fin 1) r (0 : Fin 1))
      = min ((outsAt0 m c (t.val - 1) (Nat.lt_of_le_of_lt (Nat.sub_le _ _) t.isLt)).1 (ix3 (0 : Fin 1) r (0 : Fin 1)))
          (Chamfer.minOver fun j : Fin 512 => Chamfer.dist (X m c) (Y m c) (bOf t) r (Chamfer.tileIdx (kOf t) j)) := by
  rw [outsAt0_B m c t h0]
  dsimp only
  refine (congrFun (out_B_2 (F := Ideal) c (grid0.coords t) (ms0_0 t) (hs0_0 t) (ms0_1 t) (hs0_1 t) (ms0_2 t) (hs0_2 t) (ms0_3 t) (hs0_3 t)
    (fun h => h0 ((hcond0_0 t).mp h)) (xblk m c t) (yblk m c t)
    (outsAt0 m c (t.val - 1) (Nat.lt_of_le_of_lt (Nat.sub_le _ _) t.isLt)).1) (ix3 (0 : Fin 1) r (0 : Fin 1))).trans ?_
  rw [pay2_apply, tile_rowmin]

/-- THE INVARIANT: after point `n` the carried block holds, at `r`, the minimum over the second cloud's points below
    `512 (n % 4 + 1)`. -/
theorem outs1_apply (c : Dev nD) : ∀ (n : ℕ) (h : n < cfg0.N) (r : Fin 2048),
    (outsAt0 m c n h).1 (ix3 (0 : Fin 1) r (0 : Fin 1))
      = Chamfer.minUpto (fun m' : Fin 2048 => Chamfer.dist (X m c) (Y m c) (bOf ⟨n, h⟩) r m') (512 * (n % 4 + 1))
  | 0, h, r => by
    refine (rowA m c ⟨0, h⟩ rfl r).trans ?_
    refine Eq.trans ?_ (Chamfer.minUpto_tile _ (kOf ⟨0, h⟩)).symm
    show _ = min (Chamfer.minUpto _ (512 * 0)) _
    rw [Nat.mul_zero, Chamfer.minUpto_zero]
  | n + 1, h, r => by
    by_cases h0 : (n + 1) % 4 = 0
    · refine (rowA m c ⟨n + 1, h⟩ h0 r).trans ?_
      refine Eq.trans ?_ (Chamfer.minUpto_tile _ (kOf ⟨n + 1, h⟩)).symm
      show _ = min (Chamfer.minUpto _ (512 * ((n + 1) % 4))) _
      rw [h0, Nat.mul_zero, Chamfer.minUpto_zero]
    · refine (rowB m c ⟨n + 1, h⟩ h0 r).trans ?_
      refine Eq.trans ?_ (Chamfer.minUpto_tile _ (kOf ⟨n + 1, h⟩)).symm
      show min ((outsAt0 m c n _).1 _) _ = min (Chamfer.minUpto _ (512 * ((n + 1) % 4))) _
      rw [outs1_apply c n (Nat.lt_of_succ_lt h) r]
      have hb : bOf ⟨n, Nat.lt_of_succ_lt h⟩ = bOf ⟨n + 1, h⟩ := Fin.ext (by show n / 4 = (n + 1) / 4; omega)
      have hk : n % 4 + 1 = (n + 1) % 4 := by omega
      rw [hb, hk]

/-- So at a batch's last point the carried block holds the row minima over the whole second cloud. -/
theorem rowblock (c : Dev nD) (t : Fin cfg0.N) (h3 : t.val % 4 = 3) (y : S1x2048x1.Idx) :
    (outsAt0 m c t.val t.isLt).1 y = Chamfer.rowMin (X m c) (Y m c) (bOf t) (y 1) := by
  have e : y = ix3 (0 : Fin 1) (y 1 : Fin 2048) (0 : Fin 1) := eq_mid (a := 2048) y
  refine (congrArg (outsAt0 m c t.val t.isLt).1 e).trans ?_
  refine (outs1_apply m c t.val t.isLt (y 1)).trans ?_
  rw [h3]
  exact Chamfer.minUpto_all _

/-- And at every point the column block holds the column minima of its tile. -/
theorem colblock (c : Dev nD) (t : Fin cfg0.N) (y : S1x512x1.Idx) :
    (outsAt0 m c t.val t.isLt).2 y = Chamfer.colMin (X m c) (Y m c) (bOf t) (Chamfer.tileIdx (kOf t) (y 1)) := by
  have e : y = ix3 (0 : Fin 1) (y 1 : Fin 512) (0 : Fin 1) := eq_mid (a := 512) y
  exact (congrArg (outsAt0 m c t.val t.isLt).2 e).trans (outs2_apply m c t (y 1))

/-! ## The two arrays after the region -/

/-- What the first output array ends holding: at `(b, n, 0)` the least distance from point `n` of the first cloud. -/
abbrev rowArr (c : Dev nD) : S16x2048x1.Idx → Elt Ideal .f32 := fun i => Chamfer.rowMin (X m c) (Y m c) (i 0) (i 1)
/-- What the second ends holding: at `(b, m, 0)` the least distance from point `m` of the second cloud. -/
abbrev colArr (c : Dev nD) : S16x2048x1.Idx → Elt Ideal .f32 := fun i => Chamfer.colMin (X m c) (Y m c) (i 0) (i 1)

theorem flushed2_eq (c : Dev nD) (t : Fin cfg0.N) (hf : (cfg0.win 2).flush t = true) :
    (dats m 0 c).flushed 2 t = ((cfg0.win 2).blk t).view.read (Elt Ideal) (rowArr m c) := by
  have h3 : t.val % 4 = 3 := (flush0_2 t).mp hf
  obtain ⟨-, -, -, -, -, -, e0, e1, e2, -⟩ := idx_facts t
  show (cfg0.win 2).cut (grid0.coords t) ((dats m 0 c).after 2 t) = _
  rw [after0_2]
  funext y
  rw [View.read_apply]
  refine (rowblock m c t h3 y).trans ?_
  have a0 : ((cfg0.win 2).blk t).view.emb y 0 = bOf t :=
    Fin.ext (by show win0_2.index t (0 : Fin 3) * 1 + 1 * (y 0).val = t.val / 4; have h : (y 0).val < 1 := (y 0).isLt; omega)
  have a1 : ((cfg0.win 2).blk t).view.emb y 1 = y 1 :=
    Fin.ext (by show win0_2.index t (1 : Fin 3) * 2048 + 1 * (y 1).val = (y 1).val; omega)
  show _ = Chamfer.rowMin (X m c) (Y m c) (((cfg0.win 2).blk t).view.emb y 0) (((cfg0.win 2).blk t).view.emb y 1)
  rw [a0, a1]

theorem flushed3_eq (c : Dev nD) (t : Fin cfg0.N) :
    (dats m 0 c).flushed 3 t = ((cfg0.win 3).blk t).view.read (Elt Ideal) (colArr m c) := by
  obtain ⟨-, -, -, -, -, -, -, -, -, e0, e1, e2⟩ := idx_facts t
  show (cfg0.win 3).cut (grid0.coords t) ((dats m 0 c).after 3 t) = _
  rw [after0_3]
  funext y
  rw [View.read_apply]
  refine (colblock m c t y).trans ?_
  have a0 : ((cfg0.win 3).blk t).view.emb y 0 = bOf t :=
    Fin.ext (by show win0_3.index t (0 : Fin 3) * 1 + 1 * (y 0).val = t.val / 4; have h : (y 0).val < 1 := (y 0).isLt; omega)
  have a1 : ((cfg0.win 3).blk t).view.emb y 1 = Chamfer.tileIdx (kOf t) (y 1) :=
    Fin.ext (by show win0_3.index t (1 : Fin 3) * 512 + 1 * (y 1).val = 512 * (t.val % 4) + (y 1).val; omega)
  show _ = Chamfer.colMin (X m c) (Y m c) (((cfg0.win 3).blk t).view.emb y 0) (((cfg0.win 3).blk t).view.emb y 1)
  rw [a0, a1]

/-- The batches' last points' blocks tile the first output array. -/
theorem cover2 (i : S16x2048x1.Idx) : ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 1 := (i 2).isLt
  let t : Fin cfg0.N := ⟨4 * (i 0).val + 3, by rw [N64]; omega⟩
  have htv : t.val = 4 * (i 0).val + 3 := rfl
  obtain ⟨-, -, -, -, -, -, e0, e1, e2, -⟩ := idx_facts t
  refine ⟨t, (flush0_2 t).mpr (by rw [htv]; omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1 ≤ (i 2).val ∧ (i 2).val < win0_2.index t (2 : Fin 3) * 1 + 1; omega

/-- Every point's block of the second output array: they tile it. -/
theorem cover3 (i : S16x2048x1.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 1 := (i 2).isLt
  let t : Fin cfg0.N := ⟨4 * (i 0).val + (i 1).val / 512, by rw [N64]; omega⟩
  have htv : t.val = 4 * (i 0).val + (i 1).val / 512 := rfl
  obtain ⟨-, -, -, -, -, -, -, -, -, e0, e1, e2⟩ := idx_facts t
  refine ⟨t, flush0_3 t, ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

theorem final2 (c : Dev nD) : (dats m 0 c).arrAt 2 cfg0.N = rowArr m c :=
  (dats m 0 c).arrAt_eq_of_cover 2 (rowArr m c) (flushed2_eq m c) (cover2)

theorem final3 (c : Dev nD) : (dats m 0 c).arrAt 3 cfg0.N = colArr m c :=
  (dats m 0 c).arrAt_eq_of_cover 3 (colArr m c) (fun t _ => flushed3_eq m c t) (cover3)

end Cert.KernelIdeal.ChamferArrays

end
-- ==== Proof.KernelRun.lean ====
/-
  The kernel program's run, read: its result is the Chamfer loss of its two arguments.

  After the region the first output array holds every point of the first cloud's least distance to the second cloud,
  the second output array every point of the second cloud's least distance to the first. The three host operations
  after the region sum each array over all its entries (from zero) and add the two sums.
-/
import proofs.«112183_j11656541241933_1_alg».proof.Proof.KernelArrays
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.ChamferRun

open Cert.KernelIdeal Cert.KernelIdeal.Gen Idealize.ShloMosaic.ValueIdx Idealize.ShloMosaic.StableHlo
open Cert.KernelIdeal.ChamferArrays

variable (m : (ℓ : Loc nD τ sig) → Buf (Elt Ideal) ℓ) (ρ : Dev nD → PrngReg)

/-- The host's sum of a `[16, 2048, 1]` array over all its entries, from the zero word, is the double sum over the first
    two coordinates. -/
theorem total_sum (y0 : FVec Ideal S16x2048x1 .f32) (i : S_.Idx) :
    Host.reduceAdd (F := Ideal) y0 (constant S_ .f32 0x00000000#32) reducesTo_S16x2048x1_S_d0_1_2 h_S_ i
      = ∑ a : Fin 16, ∑ b : Fin 2048, y0 (ix3 a b (0 : Fin 1)) := by
  simp only [Host.reduceAdd, Ideal.hostReduceAdd_def]
  rw [Ideal.hostReduceAdd_total reducesTo_S16x2048x1_S_d0_1_2 (fun b => b.elim0) y0 _ i, Chamfer.sum_idx3_unit]
  show Ideal.ofBits .f32 0x00000000#32 + _ = _
  rw [Ideal.ofBits_zero_f32, zero_add]

/-- The region leaves the first output array at the row minima … -/
theorem arr2 (c : Dev nD) :
    Pipeline.withArrays (cfgs 0).spec c (V0 m c) (fun w => (dats m 0 c).arrAt w (cfgs 0).N) (Proc.devRef .tc main_v0_0)
      = rowArr m c :=
  (Pipeline.withArrays_arr spec0 launch0.win.arr_inj c _ _ 2).trans (final2 m c)

/-- … and the second at the column minima. -/
theorem arr3 (c : Dev nD) :
    Pipeline.withArrays (cfgs 0).spec c (V0 m c) (fun w => (dats m 0 c).arrAt w (cfgs 0).N) (Proc.devRef .tc main_v0_1)
      = colArr m c :=
  (Pipeline.withArrays_arr spec0 launch0.win.arr_inj c _ _ 3).trans (final3 m c)

/-- So the program's result, after the host operations that follow the region, is the loss. -/
theorem tail_eq (c : Dev nD) :
    Pipeline.afterTail₀ cfgs (dats m) 0 (V0 m) [hostOps1] c main_v3 = fun _ => Chamfer.loss (X m c) (Y m c) := by
  unfold Pipeline.afterTail₀
  show StableHlo.after hostOps1 _ (Proc.devRef .tc main_v3) = _
  after_results
  rw [arr2 m c, arr3 m c]
  funext i
  show Host.reduceAdd (F := Ideal) (rowArr m c) (constant S_ .f32 0x00000000#32) reducesTo_S16x2048x1_S_d0_1_2 h_S_ i
      + Host.reduceAdd (F := Ideal) (colArr m c) (constant S_ .f32 0x00000000#32) reducesTo_S16x2048x1_S_d0_1_2 h_S_ i = _
  rw [total_sum, total_sum]
  rfl

/-- THE RUN: every weakly fair execution terminates with the result at the loss of the arguments, the arguments
    unchanged. -/
theorem run : θ_run defs (onTc (τ := τ) (main (F := Ideal))) ⟨m, fun _ => 0, ρ⟩ fun r => ∀ c : Dev nD,
      r.2.mem ((c.tc : Thread nD τ).loc main_v3)
        = (fun _ => Chamfer.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ChamferRun

end
-- ==== Proof.lean ====
/-
  The Chamfer distance of two batched point clouds: a tiled kernel against the plain jnp reference, equal over the
  extended reals.

  Both programs compute, for `x, y : [16, 2048, 3]`, the squared distances in expanded form
  `|x_n|² + |y_m|² − 2 (x_n · y_m)`, then the sum over every point of `x` of its least distance to `y` plus the sum over
  every point of `y` of its least distance to `x`.
  * The reference builds the whole `[16, 2048, 2048]` table and reduces it along each point axis.
  * The kernel walks a 16 × 4 grid: a point holds one batch's whole first cloud and 512 points of the second. It writes
    that tile's column minima straight out, and keeps a running row minimum across the batch's four tiles, started at
    `+∞` on the first and written out after the last. Three host operations then sum the two arrays and add.
  The two sides differ only in how sums and minima are grouped: the three-term dot product is a chain from zero on one
  side and a sum over three coordinates on the other; a minimum over 2048 points is taken 512 at a time; the final sums
  run over `[16, 2048, 1]` on one side and `[16, 2048]` on the other. Addition and `min` on the extended reals are
  commutative and associative and `+∞` is neutral for `min`, so no finiteness of the inputs is used.

  The three frames are the generated ones (the reference's is its generated run with the result dropped); reading the
  kernel over the extended reals changed none of its operations, so the idealization claim is `True`.
-/
import proofs.«112183_j11656541241933_1_alg».proof.Defs
import proofs.«112183_j11656541241933_1_alg».proof.Proof.Gen.Kernel
import proofs.«112183_j11656541241933_1_alg».proof.Proof.Gen.Kernel.Skeleton
import proofs.«112183_j11656541241933_1_alg».proof.Proof.Gen.Kernel.Launch
import proofs.«112183_j11656541241933_1_alg».proof.Proof.Gen.Kernel.Points
import proofs.«112183_j11656541241933_1_alg».proof.Proof.Gen.Kernel.Frame
import proofs.«112183_j11656541241933_1_alg».proof.Proof.Gen.KernelIdeal
import proofs.«112183_j11656541241933_1_alg».proof.Proof.Gen.KernelIdeal.Skeleton
import proofs.«112183_j11656541241933_1_alg».proof.Proof.Gen.KernelIdeal.Launch
import proofs.«112183_j11656541241933_1_alg».proof.Proof.Gen.KernelIdeal.Points
import proofs.«112183_j11656541241933_1_alg».proof.Proof.Gen.KernelIdeal.Frame
import proofs.«112183_j11656541241933_1_alg».proof.Proof.Gen.ReferenceIdeal
import proofs.«112183_j11656541241933_1_alg».proof.Proof.Gen.ReferenceIdeal.Run
import proofs.«112183_j11656541241933_1_alg».proof.Proof.Gen.ReferenceIdeal.Read
import proofs.«112183_j11656541241933_1_alg».proof.Proof.Gen.Pre_finite_inputs
import proofs.«112183_j11656541241933_1_alg».proof.Proof.RefValue
import proofs.«112183_j11656541241933_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds, both programs end with the loss of those clouds as their result. -/
theorem algebraic : Cert.algebraic_KernelIdeal_ReferenceIdeal := by
  intro m ρ m' ρ' _ hagree
  refine ⟨fun c => (fun _ => Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.ChamferRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.ChamferRef.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
